-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel

variable [Facts]

def fn {F : FTy → Type} [FloatOps F] (main_arg0 : FVec F S128x4096 .f32) (main_arg1 : FVec F S128x4096 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  main_v8
-- ==== Kernel.lean ====
abbrev S128x4096 : Shape := ⟨2, ![128, 4096]⟩
abbrev S1x1 : Shape := ⟨2, ![1, 1]⟩
abbrev S128 : Shape := ⟨1, ![128]⟩
abbrev S128x1 : Shape := ⟨2, ![128, 1]⟩
abbrev S128x128 : Shape := ⟨2, ![128, 128]⟩
abbrev S1 : Shape := ⟨1, ![1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S1x1, .f32⟩
  | .hbm, ⟨3, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S1x1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  bitsLt_bf16_f32 : FTy.bits .bf16 < FTy.bits .f32
  broadcasts_S128x1_S128x128 : S128x1.Broadcasts S128x128
  reduces_S128x128_S128 : S128x128.Reduces [1] S128
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S128x4096_S128x4096_S128x128_1_1_0_0_n_n_wf : DotDims.WF S128x4096 S128x4096 S128x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf

abbrev win0_0 : Pipeline.Window sig grid0 :=
  Pipeline.Window.ofSpec (Memref.whole main_arg0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x4096 : Shape := ⟨2, ![128, 4096]⟩
abbrev S_ : Shape := ⟨0, ![]⟩
abbrev S128 : Shape := ⟨1, ![128]⟩
abbrev S4096x128 : Shape := ⟨2, ![4096, 128]⟩
abbrev S128x128 : Shape := ⟨2, ![128, 128]⟩
abbrev S128x1 : Shape := ⟨2, ![128, 1]⟩

abbrev nBuf : Space → Nat
  | .hbm => 28
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S128, .f32⟩
  | .hbm, ⟨6, _⟩ => ⟨S4096x128, .f32⟩
  | .hbm, ⟨7, _⟩ => ⟨S128x128, .f32⟩
  | .hbm, ⟨8, _⟩ => ⟨S128x1, .f32⟩
  | .hbm, ⟨9, _⟩ => ⟨S128x128, .f32⟩
  | .hbm, ⟨10, _⟩ => ⟨S128x128, .f32⟩
  | .hbm, ⟨11, _⟩ => ⟨S128x4096, .f32⟩
  | .hbm, ⟨12, _⟩ => ⟨S128x4096, .f32⟩
  | .hbm, ⟨13, _⟩ => ⟨S_, .f32⟩
  | .hbm, ⟨14, _⟩ => ⟨S128, .f32⟩
  | .hbm, ⟨15, _⟩ => ⟨S4096x128, .f32⟩
  | .hbm, ⟨16, _⟩ => ⟨S128x128, .f32⟩
  | .hbm, ⟨17, _⟩ => ⟨S128x1, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S128x4096_S128_d1 : S128x4096.ReducesTo [1] S128
  h_S_ : 0 < S_.numel
  transposes_S128x4096_S4096x128_1_0 : S128x4096.Transposes [1, 0] S4096x128
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S_d0_1 : S128x128.ReducesTo [0, 1] S_
  dot_S128x4096_S4096x128_S128x128_1_0_0_1_n_n_wf : DotDims.WF S128x4096 S4096x128 S128x128 [1] [0] [0] [1] [] []

variable [Facts₀]

def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

class Facts : Prop extends Facts₀ where

variable [Facts]
-- ==== Proof.KlSpec.lean ====
/-
  The quantity both programs compute, written once over the extended reals.

  For a 128 × 4096 array `p`, row `i` against row `j`:
    pairKl p i j = Σ_d p(i,d)·log p(i,d) − Σ_d p(i,d)·log p(j,d),
  the Kullback–Leibler sum of row `i` against row `j` written as a self term minus a cross term. The loss is
    (ε + Σ_i Σ_j |pairKl p i j − pairKl q i j|) / 16384
  with ε the binary32 value nearest 10⁻⁴, kept as its bit pattern (the same word on both sides, never evaluated).
  Also here: the one re-arrangement the two programs differ by, a sum over all index pairs of a 128 × 128 array against
  the iterated sum over rows then columns; it holds in any commutative monoid, so no finiteness is needed.
-/
import Idealize.ShloMosaic.PureOps.Ideal
import Idealize.ShloMosaic.PureOps.Ideal.Laws
import Idealize.ShloMosaic.Lib.ValueIdx

noncomputable section

namespace Cert.KlSpec

open Idealize.ShloMosaic Idealize.ShloMosaic.ValueIdx

/-- A 128 × 4096 array of extended reals. -/
abbrev Arr : Type := (⟨2, ![128, 4096]⟩ : Shape).Idx → EReal

/-- Row `i`'s self term Σ_d p(i,d)·log p(i,d). -/
def selfTerm (p : Arr) (i : Fin 128) : EReal := ∑ d : Fin 4096, p (ix2 i d) * Ideal.log (p (ix2 i d))

/-- The cross term of rows `i` and `j`: Σ_d p(i,d)·log p(j,d). -/
def crossTerm (p : Arr) (i j : Fin 128) : EReal := ∑ d : Fin 4096, p (ix2 i d) * Ideal.log (p (ix2 j d))

/-- The absolute gap of two pairwise divergences given their self and cross terms: |(s − c) − (s' − c')|, the absolute
    value being the larger of a number and its negative. -/
def gapOf (s c s' c' : EReal) : EReal := max ((s - c) - (s' - c')) (-((s - c) - (s' - c')))

/-- |KL_p(i‖j) − KL_q(i‖j)|. -/
def gap (p q : Arr) (i j : Fin 128) : EReal :=
  gapOf (selfTerm p i) (crossTerm p i j) (selfTerm q i) (crossTerm q i j)

/-- The sum of the gaps over all ordered pairs of rows, rows outermost. -/
def total (p q : Arr) : EReal := ∑ i : Fin 128, ∑ j : Fin 128, gap p q i j

/-- The loss: (ε + total) / 16384. -/
def loss (p q : Arr) : EReal :=
  Ideal.div (Ideal.ofBits .f32 0x38D1B717#32 + total p q) (Ideal.ofBits .f32 0x46800000#32)

/-- The sum over every index of a 128 × 128 array is the sum over rows of the sums over columns. -/
theorem sum_all_eq_rows (f : (⟨2, ![128, 128]⟩ : Shape).Idx → EReal) :
    ∑ y, f y = ∑ i : Fin 128, ∑ j : Fin 128, f (ix2 i j) := sum_idx2 f

end Cert.KlSpec

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelValue.lean ====
/-
  The kernel body's one stored value, read at the extended reals, is the loss of `KlSpec`.

  The body keeps each row sum as a 128 × 1 column and broadcasts it along the columns; its matrix unit contracts the
  columns of the array against the columns of the logarithm directly (both operands contracted on their second axis), so
  entry (i, j) pairs row i with row j; its final sum runs over the columns of the gap matrix first and then over the rows.
  A change of float format is the identity at the extended reals, so the narrowed operands of the matrix unit are the
  operands themselves.
-/
import proofs.«130564_j53927609369064_1_alg».proof.Proof.Gen.KernelIdeal.Skeleton
import proofs.«130564_j53927609369064_1_alg».proof.Proof.KlSpec
import proofs.«130564_j53927609369064_1_alg».proof.Proof.LibColumn
import Idealize.ShloMosaic.Lib.Pipeline.Value
import Idealize.ShloMosaic.Lib.ValueIdx
import Idealize.ShloMosaic.PureOps.Ideal.Laws

noncomputable section

namespace Cert.KernelIdeal.KernelValue

open Cert.KernelIdeal Cert.KernelIdeal.Gen
open Idealize.ShloMosaic Idealize.ShloMosaic.ValueIdx Cert.KlSpec Cert.LibColumn

/-! ## The reductions read at an index -/

/-- A lane sum over the second axis of an a × b array, kept as an a × 1 column, reads at row `i` the sum of that row. -/
theorem rowSumCol_apply {a b : ℕ} (v : FVec Ideal ⟨2, ![a, b]⟩ .f32)
    (h1 : Shape.Reduces ⟨2, ![a, b]⟩ [1] ⟨1, ![a]⟩) (hφ : FKind.Formats .f32)
    (hacc : (0x00000000#32 : BitVec 32) = FKind.add.neutral .f32 hφ)
    (h2 : Shape.ShapeCasts ⟨1, ![a]⟩ ⟨2, ![a, 1]⟩) (i : Fin a) (u : Fin 1) :
    shapeCast ⟨2, ![a, 1]⟩ (multiReduction .add [1] ⟨1, ![a]⟩ v 0x00000000#32 h1 hφ hacc) h2 (ix2 i u)
      = ∑ d : Fin b, v (ix2 i d) := by
  refine (shapeCast_a_a1_apply _ h2 i u).trans ?_
  refine (Ideal.multiReduction_add_single v _ h1 hφ hacc (ix1 i)).trans ?_
  refine Finset.sum_congr rfl fun d _ => ?_
  exact congrArg v (funext fun ax => Fin.ext (by match ax with | ⟨0, _⟩ => rfl | ⟨1, _⟩ => rfl))

/-- A sum over the first axis of an a × 1 column reads, at its one index, the sum of the column's entries. -/
theorem colSum_apply {a : ℕ} (v : FVec Ideal ⟨2, ![a, 1]⟩ .f32)
    (h : Shape.Reduces ⟨2, ![a, 1]⟩ [0] ⟨1, ![1]⟩) (hφ : FKind.Formats .f32)
    (hacc : (0x00000000#32 : BitVec 32) = FKind.add.neutral .f32 hφ) (u : Fin 1) :
    multiReduction .add [0] ⟨1, ![1]⟩ v 0x00000000#32 h hφ hacc (ix1 u) = ∑ k : Fin a, v (ix2 k u) := by
  refine (Ideal.multiReduction_add_single v _ h hφ hacc (ix1 u)).trans ?_
  refine Finset.sum_congr rfl fun k _ => ?_
  exact congrArg v (funext fun ax => Fin.ext (by match ax with | ⟨0, _⟩ => rfl | ⟨1, _⟩ => rfl))

/-- Columns first, then rows: the two-stage sum of an a × b array kept as a 1 × 1 array is the iterated sum. -/
theorem twoStageSum_apply {a b : ℕ} (M : FVec Ideal ⟨2, ![a, b]⟩ .f32)
    (h1 : Shape.Reduces ⟨2, ![a, b]⟩ [1] ⟨1, ![a]⟩) (hφ : FKind.Formats .f32)
    (hacc : (0x00000000#32 : BitVec 32) = FKind.add.neutral .f32 hφ)
    (h2 : Shape.ShapeCasts ⟨1, ![a]⟩ ⟨2, ![a, 1]⟩)
    (h3 : Shape.Reduces ⟨2, ![a, 1]⟩ [0] ⟨1, ![1]⟩) (hφ' : FKind.Formats .f32)
    (hacc' : (0x00000000#32 : BitVec 32) = FKind.add.neutral .f32 hφ')
    (h4 : Shape.ShapeCasts ⟨1, ![1]⟩ ⟨2, ![1, 1]⟩) (r c : Fin 1) :
    shapeCast ⟨2, ![1, 1]⟩ (multiReduction .add [0] ⟨1, ![1]⟩
        (shapeCast ⟨2, ![a, 1]⟩ (multiReduction .add [1] ⟨1, ![a]⟩ M 0x00000000#32 h1 hφ hacc) h2)
        0x00000000#32 h3 hφ' hacc') h4 (ix2 r c)
      = ∑ i : Fin a, ∑ j : Fin b, M (ix2 i j) := by
  refine (shapeCast_a_a1_apply _ h4 r c).trans ?_
  refine (colSum_apply _ h3 hφ' hacc' r).trans ?_
  exact Finset.sum_congr rfl fun i _ => rowSumCol_apply M h1 hφ hacc h2 i r

/-! ## The matrix unit's product read at an index -/

theorem lhs_dot_0 (i : S128x128.Idx) (q : dot_S128x4096_S128x4096_S128x128_1_1_0_0_n_n.contr.Idx) :
    (dot_S128x4096_S128x4096_S128x128_1_1_0_0_n_n.lhsIdx i q 0).val = (i 0).val := by
  unfold DotDims.lhsIdx
  rw [dif_neg (show ¬(0 : Fin S128x4096.rank) ∈ dot_S128x4096_S128x4096_S128x128_1_1_0_0_n_n.lhsBatch by decide), dif_pos (show (0 : Fin S128x4096.rank) ∈ dot_S128x4096_S128x4096_S128x128_1_1_0_0_n_n.lhsNonContracting by decide)]
  rfl
theorem lhs_dot_1 (i : S128x128.Idx) (q : dot_S128x4096_S128x4096_S128x128_1_1_0_0_n_n.contr.Idx) :
    (dot_S128x4096_S128x4096_S128x128_1_1_0_0_n_n.lhsIdx i q 1).val = (q ⟨0, by decide⟩).val :=
  dot_S128x4096_S128x4096_S128x128_1_1_0_0_n_n.lhsIdx_val_of_single rfl i q
theorem rhs_dot_0 (i : S128x128.Idx) (q : dot_S128x4096_S128x4096_S128x128_1_1_0_0_n_n.contr.Idx) :
    (dot_S128x4096_S128x4096_S128x128_1_1_0_0_n_n.rhsIdx i q 0).val = (i 1).val := by
  unfold DotDims.rhsIdx
  rw [dif_neg (show ¬(0 : Fin S128x4096.rank) ∈ dot_S128x4096_S128x4096_S128x128_1_1_0_0_n_n.rhsBatch by decide), dif_pos (show (0 : Fin S128x4096.rank) ∈ dot_S128x4096_S128x4096_S128x128_1_1_0_0_n_n.rhsNonContracting by decide)]
  rfl
theorem rhs_dot_1 (i : S128x128.Idx) (q : dot_S128x4096_S128x4096_S128x128_1_1_0_0_n_n.contr.Idx) :
    (dot_S128x4096_S128x4096_S128x128_1_1_0_0_n_n.rhsIdx i q 1).val = (q ⟨0, by decide⟩).val :=
  dot_S128x4096_S128x4096_S128x128_1_1_0_0_n_n.rhsIdx_val_of_single rfl i q

/-- Into the zero accumulator, entry (i, j) of the product contracting both operands' second axes is
    Σ_d l(i,d)·r(j,d). -/
theorem rowsProduct_apply {φ₁ φ₂ : FTy} (l : FVec Ideal S128x4096 φ₁) (r : FVec Ideal S128x4096 φ₂) (i j : Fin 128) :
    matmul dot_S128x4096_S128x4096_S128x128_1_1_0_0_n_n none l r (constant S128x128 .f32 0x00000000#32) (ix2 i j)
      = ∑ d : Fin 4096, l (ix2 i d) * r (ix2 j d) := by
  simp only [matmul]
  rw [Ideal.matmul_constant_zero_apply, ← Equiv.sum_comp (ValueIdx.contrEquiv1 dot_S128x4096_S128x4096_S128x128_1_1_0_0_n_n 4096 rfl rfl).symm]
  refine Finset.sum_congr rfl fun k _ => ?_
  have hk := ValueIdx.contrEquiv1_symm_val dot_S128x4096_S128x4096_S128x128_1_1_0_0_n_n 4096 rfl rfl k
  have el : dot_S128x4096_S128x4096_S128x128_1_1_0_0_n_n.lhsIdx (ix2 i j) ((ValueIdx.contrEquiv1 dot_S128x4096_S128x4096_S128x128_1_1_0_0_n_n 4096 rfl rfl).symm k) = ix2 i k := funext fun a => Fin.ext (by
    match a with
    | ⟨0, _⟩ => exact lhs_dot_0 _ _
    | ⟨1, _⟩ => exact (lhs_dot_1 _ _).trans hk)
  have er : dot_S128x4096_S128x4096_S128x128_1_1_0_0_n_n.rhsIdx (ix2 i j) ((ValueIdx.contrEquiv1 dot_S128x4096_S128x4096_S128x128_1_1_0_0_n_n 4096 rfl rfl).symm k) = ix2 j k := funext fun a => Fin.ext (by
    match a with
    | ⟨0, _⟩ => exact rhs_dot_0 _ _
    | ⟨1, _⟩ => exact (rhs_dot_1 _ _).trans hk)
  rw [el, er]

/-! ## The stored value -/

/-- The body's stored 1 × 1 value is the loss of its two loaded arrays. -/
theorem pay_eq (x0 x1 : FVec Ideal S128x4096 .f32) (y : S1x1.Idx) :
    k0_pay1 (F := Ideal) x0 x1 y = loss x0 x1 := by
  obtain ⟨r, c, rfl⟩ : ∃ (r c : Fin 1), y = ix2 r c := ⟨y 0, y 1, eq_ix2 y⟩
  unfold k0_pay1
  refine congrArg (fun t => Ideal.div (Ideal.ofBits .f32 0x38D1B717#32 + t) (Ideal.ofBits .f32 0x46800000#32)) ?_
  refine (twoStageSum_apply _ _ _ _ _ _ _ _ _ r c).trans ?_
  unfold total
  refine Finset.sum_congr rfl fun i _ => Finset.sum_congr rfl fun j _ => ?_
  unfold gap
  refine congr (congr (congr (congrArg gapOf ?_) ?_) ?_) ?_
  · exact (broadcastTo_a1_ab_apply _ _ i j).trans ((rowSumCol_apply _ _ _ _ _ i 0).trans rfl)
  · exact (rowsProduct_apply _ _ i j).trans rfl
  · exact (broadcastTo_a1_ab_apply _ _ i j).trans ((rowSumCol_apply _ _ _ _ _ i 0).trans rfl)
  · exact (rowsProduct_apply _ _ i j).trans rfl

end Cert.KernelIdeal.KernelValue

end
-- ==== Proof.KernelRun.lean ====
/-
  The kernel program's run, read: its scalar result is the loss of the two argument arrays.

  The grid has one point; each input window's one block is its whole argument array and the output window's one block is
  the whole 1 × 1 result array, so the array after the region holds the body's stored value everywhere; the one host
  line after the region recasts that 1 × 1 array as a scalar.
-/
import proofs.«130564_j53927609369064_1_alg».proof.Proof.Gen.KernelIdeal.Frame
import proofs.«130564_j53927609369064_1_alg».proof.Proof.KernelValue
import Idealize.ShloMosaic.Lib.Pipeline.Value
import Idealize.ShloMosaic.Lib.StableHlo.Run
import Idealize.ShloMosaic.Lib.Tactic

noncomputable section

namespace Cert.KernelIdeal.KernelRun

open Cert.KernelIdeal Cert.KernelIdeal.Gen Cert.KlSpec Cert.KernelIdeal.KernelValue
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The loss of the two argument arrays as launched on core `c`. -/
abbrev lossOf (c : Dev nD) : EReal :=
  loss (m ((c : Thread nD τ).loc main_arg0)) (m ((c : Thread nD τ).loc main_arg1))

/-- The first input window's block at the grid's point is the whole first argument. -/
theorem iblk0_eq (c : Dev nD) (t : Fin cfg0.N) :
    (iblk m c 0 t : Vec Ideal S128x4096 .f32) = m ((c : Thread nD τ).loc main_arg0) := by
  funext y
  unfold iblk
  rw [View.read_apply]
  show V m c main_arg0 _ = m (c.tc.loc main_arg0) _
  unfold V
  congr 1
  funext a
  apply Fin.ext
  match a with
  | ⟨0, _⟩ => show win0_0.index t 0 * 128 + 1 * (y 0).val = (y 0).val; rw [show win0_0.index t 0 = 0 from rfl]; omega
  | ⟨1, _⟩ => show win0_0.index t 1 * 4096 + 1 * (y 1).val = (y 1).val; rw [show win0_0.index t 1 = 0 from rfl]; omega

/-- The second input window's block at the grid's point is the whole second argument. -/
theorem iblk1_eq (c : Dev nD) (t : Fin cfg0.N) :
    (iblk m c 1 t : Vec Ideal S128x4096 .f32) = m ((c : Thread nD τ).loc main_arg1) := by
  funext y
  unfold iblk
  rw [View.read_apply]
  show V m c main_arg1 _ = m (c.tc.loc main_arg1) _
  unfold V
  congr 1
  funext a
  apply Fin.ext
  match a with
  | ⟨0, _⟩ => show win0_1.index t 0 * 128 + 1 * (y 0).val = (y 0).val; rw [show win0_1.index t 0 = 0 from rfl]; omega
  | ⟨1, _⟩ => show win0_1.index t 1 * 4096 + 1 * (y 1).val = (y 1).val; rw [show win0_1.index t 1 = 0 from rfl]; omega

/-- What the point writes back is the block of the constant array at the loss. -/
theorem flushed_eq (c : Dev nD) (t : Fin cfg0.N) :
    (dats m 0 c).flushed 2 t = ((cfg0.win 2).blk t).view.read (Elt Ideal) (fun _ => lossOf m c) := by
  show (cfg0.win 2).cut (grid0.coords t) ((dats m 0 c).after 2 t) = _
  rw [after0_2]
  unfold out0_2
  rw [View.canon_unit_zero zeros2]
  simp only [View.ld_unit_zero (S := S128x4096) zeros2]
  funext j
  show k0_pay1 (F := Ideal) (iblk m c 0 t) (iblk m c 1 t) j = lossOf m c
  exact (pay_eq _ _ _).trans (congr (congrArg loss (iblk0_eq m c t)) (iblk1_eq m c t))

/-- The one point's block is the whole 1 × 1 array. -/
theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The result array after the region holds the loss. -/
theorem final (c : Dev nD) : (dats m 0 c).arrAt 2 cfg0.N = fun _ => lossOf m c :=
  (dats m 0 c).arrAt_eq_of_cover 2 (fun _ => lossOf m c) (fun t _ => flushed_eq m c t) fun i =>
    ⟨t0_0, flush0_2 t0_0, by
      rw [mem_blk]
      intro a
      match a with
      | ⟨0, _⟩ => show win0_2.index t0_0 0 * 1 ≤ (i 0).val ∧ (i 0).val < win0_2.index t0_0 0 * 1 + 1
                  rw [show win0_2.index t0_0 0 = 0 from rfl]; have h0 : (i 0).val < 1 := (i 0).isLt; omega
      | ⟨1, _⟩ => show win0_2.index t0_0 1 * 1 ≤ (i 1).val ∧ (i 1).val < win0_2.index t0_0 1 * 1 + 1
                  rw [show win0_2.index t0_0 1 = 0 from rfl]; have h1 : (i 1).val < 1 := (i 1).isLt; omega⟩

/-- The host line after the region leaves the scalar result at the loss. -/
theorem tail_eq (c : Dev nD) :
    Pipeline.afterTail₀ cfgs (dats m) 0 (V0 m) [hostOps1] c main_v1 = fun _ => lossOf m c := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N) (Proc.tc.devRef main_v0)
      = fun _ => lossOf m c :=
    (Pipeline.withArrays_arr spec0 launch0.win.arr_inj c _ _ 2).trans (final m c)
  exact (congrArg (fun A => shapeCast S_ A shapeCasts_S1x1_S_ i) e).trans rfl

/-- THE RUN, READ: every weakly fair execution ends with the scalar result at the loss of the argument arrays and the
    arguments unchanged. -/
theorem run : θ_run defs (onTc (τ := τ) (main (F := Ideal))) ⟨m, fun _ => 0, ρ⟩ fun r => ∀ c : Dev nD,
      r.2.mem ((c : Thread nD τ).loc main_v1) = (fun _ => lossOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KernelRun

end
-- ==== Proof.RefValue.lean ====
/-
  The reference program's result, read one operation at a time at the extended reals, is the loss of `KlSpec`.

  Its row sums start from the zero word, which is the real 0 and drops out; its matrix product contracts the columns of
  the array against the columns of the TRANSPOSED logarithm, so entry (i, j) pairs row i with row j; its final sum runs
  over all index pairs of the 128 × 128 gap matrix at once, which is the iterated sum over rows then columns.
-/
import proofs.«130564_j53927609369064_1_alg».proof.Proof.Gen.ReferenceIdeal.Read
import proofs.«130564_j53927609369064_1_alg».proof.Proof.KlSpec

noncomputable section

namespace Cert.ReferenceIdeal.RefValue

open Cert.ReferenceIdeal Cert.ReferenceIdeal.Gen Cert.ReferenceIdeal.Read
open Idealize.ShloMosaic Idealize.ShloMosaic.ValueIdx Cert.KlSpec

/-! ## The first input's chain -/

/-- The row sum of p·log p at row `i` is the self term (the initial value is the zero word). -/
theorem rowSum0_eq (x : Arr) (i : Fin 128) : val_main_v2 (F := Ideal) x (ix1 i) = selfTerm x i := by
  rw [val_main_v2_apply]
  show Ideal.ofBits .f32 0x00000000#32 + _ = _
  rw [Ideal.ofBits_zero_f32, zero_add]
  unfold selfTerm
  refine Finset.sum_congr rfl fun d _ => ?_
  have e : idx_main_v2 (ix1 i) d = ix2 i d :=
    funext fun a => Fin.ext (by match a with | ⟨0, _⟩ => rfl | ⟨1, _⟩ => rfl)
  rw [val_main_v1_apply, val_main_v0_apply, e]
  rfl

/-- Entry (i, j) of the product with the transposed logarithm is the cross term of rows i and j. -/
theorem cross0_eq (x : Arr) (i j : Fin 128) : val_main_v4 (F := Ideal) x (ix2 i j) = crossTerm x i j := by
  rw [val_main_v4_apply]
  unfold crossTerm
  refine Finset.sum_congr rfl fun d _ => ?_
  have el : lidx_main_v4 (ix2 i j) d = ix2 i d :=
    funext fun a => Fin.ext (by match a with | ⟨0, _⟩ => rfl | ⟨1, _⟩ => rfl)
  have er : idx_main_v3 (ridx_main_v4 (ix2 i j) d) = ix2 j d :=
    funext fun a => Fin.ext (by match a with | ⟨0, _⟩ => rfl | ⟨1, _⟩ => rfl)
  rw [val_main_v3_apply, val_main_v0_apply, el, er]
  rfl

/-- The self term broadcast along the columns. -/
theorem selfBc0_eq (x : Arr) (i j : Fin 128) : val_main_v6 (F := Ideal) x (ix2 i j) = selfTerm x i := by
  have e : idx_main_v5 (idx_main_v6 (ix2 i j)) = ix1 i :=
    funext fun a => Fin.ext (by match a with | ⟨0, _⟩ => rfl)
  rw [val_main_v6_apply, val_main_v5_apply, e]
  exact rowSum0_eq x i

/-! ## The second input's chain -/

theorem rowSum1_eq (x : Arr) (i : Fin 128) : val_main_v10 (F := Ideal) x (ix1 i) = selfTerm x i := by
  rw [val_main_v10_apply]
  show Ideal.ofBits .f32 0x00000000#32 + _ = _
  rw [Ideal.ofBits_zero_f32, zero_add]
  unfold selfTerm
  refine Finset.sum_congr rfl fun d _ => ?_
  have e : idx_main_v10 (ix1 i) d = ix2 i d :=
    funext fun a => Fin.ext (by match a with | ⟨0, _⟩ => rfl | ⟨1, _⟩ => rfl)
  rw [val_main_v9_apply, val_main_v8_apply, e]
  rfl

theorem cross1_eq (x : Arr) (i j : Fin 128) : val_main_v12 (F := Ideal) x (ix2 i j) = crossTerm x i j := by
  rw [val_main_v12_apply]
  unfold crossTerm
  refine Finset.sum_congr rfl fun d _ => ?_
  have el : lidx_main_v12 (ix2 i j) d = ix2 i d :=
    funext fun a => Fin.ext (by match a with | ⟨0, _⟩ => rfl | ⟨1, _⟩ => rfl)
  have er : idx_main_v11 (ridx_main_v12 (ix2 i j) d) = ix2 j d :=
    funext fun a => Fin.ext (by match a with | ⟨0, _⟩ => rfl | ⟨1, _⟩ => rfl)
  rw [val_main_v11_apply, val_main_v8_apply, el, er]
  rfl

theorem selfBc1_eq (x : Arr) (i j : Fin 128) : val_main_v14 (F := Ideal) x (ix2 i j) = selfTerm x i := by
  have e : idx_main_v13 (idx_main_v14 (ix2 i j)) = ix1 i :=
    funext fun a => Fin.ext (by match a with | ⟨0, _⟩ => rfl)
  rw [val_main_v14_apply, val_main_v13_apply, e]
  exact rowSum1_eq x i

/-! ## The gap matrix and the result -/

/-- Entry (i, j) of the absolute difference of the two pairwise matrices is the gap. -/
theorem gap_eq (x0 x1 : Arr) (i j : Fin 128) : val_main_v17 (F := Ideal) x0 x1 (ix2 i j) = gap x0 x1 i j := by
  rw [val_main_v17_apply, val_main_v16_apply, val_main_v7_apply, val_main_v15_apply,
    selfBc0_eq, cross0_eq, selfBc1_eq, cross1_eq]
  rfl

/-- The reference's scalar result is the loss. -/
theorem result_eq (x0 x1 : Arr) (i : S_.Idx) : val_main_v20 (F := Ideal) x0 x1 i = loss x0 x1 := by
  rw [val_main_v20_apply, val_main_v19_apply, val_main_v18_apply, sum_all_eq_rows]
  simp only [gap_eq]
  show Ideal.div (Ideal.ofBits .f32 0x38D1B717#32 + (Ideal.ofBits .f32 0x00000000#32 + _)) (Ideal.ofBits .f32 0x46800000#32) = _
  rw [Ideal.ofBits_zero_f32, zero_add]
  rfl

end Cert.ReferenceIdeal.RefValue

end
-- ==== Proof.lean ====
/-
  Both programs compute one number from two 128 × 4096 arrays p and q: with
    KL_p(i‖j) = Σ_d p(i,d)·log p(i,d) − Σ_d p(i,d)·log p(j,d),
  the loss (ε + Σ_i Σ_j |KL_p(i‖j) − KL_q(i‖j)|) / 16384, ε the binary32 value nearest 10⁻⁴.

  The kernel computes the cross terms on its matrix unit, contracting the second axes of p and log p directly, keeps the
  row sums as columns, and adds the gap matrix up columns first and rows second; the reference transposes log p, uses a
  general dot product, and adds the gap matrix up in one sum over all index pairs. Over the extended reals a change of
  float format is the identity, both products are the same sum of products, and the two orders of addition agree because
  addition of extended reals is commutative and associative; nothing is cancelled or distributed, so the inputs' finiteness
  is never used. The three programs' runs terminate without fault and leave their arguments unchanged; the idealization
  rewrote no operation, so it preserves the kernel trivially.
-/
import proofs.«130564_j53927609369064_1_alg».proof.Defs
import proofs.«130564_j53927609369064_1_alg».proof.Proof.Gen.Kernel
import proofs.«130564_j53927609369064_1_alg».proof.Proof.Gen.Kernel.Skeleton
import proofs.«130564_j53927609369064_1_alg».proof.Proof.Gen.Kernel.Launch
import proofs.«130564_j53927609369064_1_alg».proof.Proof.Gen.Kernel.Points
import proofs.«130564_j53927609369064_1_alg».proof.Proof.Gen.Kernel.Frame
import proofs.«130564_j53927609369064_1_alg».proof.Proof.Gen.KernelIdeal
import proofs.«130564_j53927609369064_1_alg».proof.Proof.Gen.KernelIdeal.Skeleton
import proofs.«130564_j53927609369064_1_alg».proof.Proof.Gen.KernelIdeal.Launch
import proofs.«130564_j53927609369064_1_alg».proof.Proof.Gen.KernelIdeal.Points
import proofs.«130564_j53927609369064_1_alg».proof.Proof.Gen.KernelIdeal.Frame
import proofs.«130564_j53927609369064_1_alg».proof.Proof.Gen.ReferenceIdeal
import proofs.«130564_j53927609369064_1_alg».proof.Proof.Gen.ReferenceIdeal.Run
import proofs.«130564_j53927609369064_1_alg».proof.Proof.Gen.ReferenceIdeal.Read
import proofs.«130564_j53927609369064_1_alg».proof.Proof.Gen.Pre_finite_inputs
import proofs.«130564_j53927609369064_1_alg».proof.Proof.KernelRun
import proofs.«130564_j53927609369064_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two arrays, the kernel's scalar result and the reference's are both the loss. -/
theorem algebraic : Cert.algebraic_KernelIdeal_ReferenceIdeal := by
  intro m ρ m' ρ' _ hagree
  refine ⟨fun c => fun _ => Cert.KernelIdeal.KernelRun.lossOf m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  funext i
  exact Cert.ReferenceIdeal.RefValue.result_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
